-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x128 : Shape := ⟨2, ![640000, 128]⟩
abbrev S640000 : Shape := ⟨1, ![640000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S64x128 .f32) (main_arg7 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S640000x128 .f32) (main_arg2 : IVec S640000 32) (main_arg3 : IVec S640000 32) (main_arg4 : FVec F S128x64 .f32) (main_arg5 : FVec F S64 .f32) (main_arg6 : FVec F S64x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S10000x128 : Shape := ⟨2, ![10000, 128]⟩
abbrev S640000x128 : Shape := ⟨2, ![640000, 128]⟩
abbrev S640000 : Shape := ⟨1, ![640000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩
abbrev S640000x1 : Shape := ⟨2, ![640000, 1]⟩
abbrev S6400x128 : Shape := ⟨2, ![6400, 128]⟩
abbrev S6400x64 : Shape := ⟨2, ![6400, 64]⟩
abbrev S1x64 : Shape := ⟨2, ![1, 64]⟩
abbrev S1x128 : Shape := ⟨2, ![1, 128]⟩

abbrev nBuf : Space → Nat
  | .hbm => 29
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x128, .f32⟩
  | .hbm, ⟨27, _⟩ => ⟨S640000x128, .f32⟩
  | .hbm, ⟨28, _⟩ => ⟨S640000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S128x64, .f32⟩
  | .local _ .vmem, ⟨5, _⟩ => ⟨S64, .f32⟩
  | .local _ .vmem, ⟨6, _⟩ => ⟨S64x128, .f32⟩
  | .local _ .vmem, ⟨7, _⟩ => ⟨S128, .f32⟩
  | .local _ .vmem, ⟨8, _⟩ => ⟨S6400x128, .f32⟩
  | .local _ .vmem, ⟨9, _⟩ => ⟨S6400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S6400x64 : S1x64.Broadcasts S6400x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  gather_S10000x128_S640000x1_S640000x128_1_0_n_n_0_1_1128_wf : GatherDims.WF S10000x128 S640000x1 S640000x128 [1] [0] [] [0] [] 1 ![1, 128]
  dot_S6400x128_S128x64_S6400x64_1_0_0_1_n_n_wf : DotDims.WF S6400x128 S128x64 S6400x64 [1] [0] [0] [1] [] []
  dot_S6400x64_S64x128_S6400x128_1_0_0_1_n_n_wf : DotDims.WF S6400x64 S64x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .f32 = 32 ∨ (Rect.block (s := S640000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S640000x128.size a
  hwx0_1 : ∀ i : grid0.Coords, EltTy.bits .f32 = 32 ∨ (Rect.block (s := S640000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x128.size a ≤ S640000x128.size a
  hwx0_6 : ∀ i : grid0.Coords, EltTy.bits .f32 = 32 ∨ (Rect.block (s := S640000x128) S6400x128.size (cc0_transform_6 i) (hinb0_6 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf

abbrev win0_0 : Pipeline.Window sig grid0 :=
  Pipeline.Window.ofSpec (Memref.whole main_v15) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S6400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S640000x128 : Shape := ⟨2, ![640000, 128]⟩
abbrev S640000 : Shape := ⟨1, ![640000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩
abbrev S640000x1 : Shape := ⟨2, ![640000, 1]⟩
abbrev S640000x64 : Shape := ⟨2, ![640000, 64]⟩
abbrev S1x64 : Shape := ⟨2, ![1, 64]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x128, .f32⟩
  | .hbm, ⟨27, _⟩ => ⟨S640000x128, .f32⟩
  | .hbm, ⟨28, _⟩ => ⟨S640000x64, .f32⟩
  | .hbm, ⟨29, _⟩ => ⟨S1x64, .f32⟩
  | .hbm, ⟨30, _⟩ => ⟨S640000x64, .f32⟩
  | .hbm, ⟨31, _⟩ => ⟨S640000x64, .f32⟩
  | .hbm, ⟨32, _⟩ => ⟨S_, .f32⟩
  | .hbm, ⟨33, _⟩ => ⟨S640000x64, .f32⟩
  | .hbm, ⟨34, _⟩ => ⟨S640000x64, .f32⟩
  | .hbm, ⟨35, _⟩ => ⟨S640000x128, .f32⟩
  | .hbm, ⟨36, _⟩ => ⟨S1x128, .f32⟩
  | .hbm, ⟨37, _⟩ => ⟨S640000x128, .f32⟩
  | .hbm, ⟨38, _⟩ => ⟨S640000x128, .f32⟩
  | .hbm, ⟨39, _⟩ => ⟨S640000x128, .f32⟩
  | .hbm, ⟨40, _⟩ => ⟨S640000x128, .f32⟩
  | .hbm, ⟨41, _⟩ => ⟨S640000x128, .f32⟩
  | .hbm, ⟨42, _⟩ => ⟨S_, .f32⟩
  | .hbm, ⟨43, _⟩ => ⟨S640000x128, .f32⟩
  | .hbm, ⟨44, _⟩ => ⟨S640000x128, .f32⟩
  | .hbm, ⟨45, _⟩ => ⟨S_, .f32⟩
  | .hbm, ⟨46, _⟩ => ⟨S640000x128, .f32⟩
  | .hbm, ⟨47, _⟩ => ⟨S640000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S64_S1x64_1 : S64.BroadcastsInDim S1x64 (![1] : Fin 1 → Fin S1x64.rank)
  bcast_S1x64_S640000x64_0_1 : S1x64.BroadcastsInDim S640000x64 (![0, 1] : Fin 2 → Fin S640000x64.rank)
  bcast_S_S640000x64 : S_.BroadcastsInDim S640000x64 (![] : Fin 0 → Fin S640000x64.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  gather_S10000x128_S640000x1_S640000x128_1_0_n_n_0_1_1128_wf : GatherDims.WF S10000x128 S640000x1 S640000x128 [1] [0] [] [0] [] 1 ![1, 128]
  dot_S640000x128_S128x64_S640000x64_1_0_0_1_n_n_wf : DotDims.WF S640000x128 S128x64 S640000x64 [1] [0] [0] [1] [] []
  dot_S640000x64_S64x128_S640000x128_1_0_0_1_n_n_wf : DotDims.WF S640000x64 S64x128 S640000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x128_S128x64_S640000x64_1_0_0_1_n_n : DotDims S640000x128 S128x64 S640000x64 where
  lhsContracting := [1]
  rhsContracting := [0]
  lhsNonContracting := [0]
  rhsNonContracting := [1]
  lhsBatch := []
  rhsBatch := []
  wf := dot_S640000x128_S128x64_S640000x64_1_0_0_1_n_n_wf
def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf

class Facts : Prop extends Facts₀ where

variable [Facts]
-- ==== Proof.EdgeSpec.lean ====
/-
  What one edge of the graph layer computes, as a function on the extended reals.

  For an edge with feature difference `d` (a row of 128 numbers) and residual feature `e`, the layer is a
  two-layer perceptron followed by a residual add and a logistic gate:

    hidden k  = max (∑ j, d j · W1[j, k] + b1[k]) 0                      (64 hidden units)
    logit  q  = e + (∑ k, hidden k · W2[k, q] + b2[q])                   (128 outputs)
    out    q  = 1 / (1 + exp (-logit q))

  Every row of the result depends on that row of the two edge arrays only, and on the whole weight
  arrays: this is what lets a tiling of the edges into row blocks compute the same array.
-/
import Idealize.ShloMosaic.PureOps.Ideal
import Idealize.ShloMosaic.Lib.ValueIdx

noncomputable section

namespace Cert.EdgeMlp

open Idealize.ShloMosaic Idealize.ShloMosaic.ValueIdx

/-- Hidden unit `k` of one edge: the rectified affine image of the edge's feature difference. -/
def hiddenUnit (d : Fin 128 → EReal) (W1 : FVec Ideal ⟨2, ![128, 64]⟩ .f32) (b1 : FVec Ideal ⟨1, ![64]⟩ .f32)
    (k : Fin 64) : EReal :=
  max ((∑ j : Fin 128, d j * W1 (ix2 j k)) + b1 (ix1 k)) (Ideal.ofBits .f32 0x00000000#32)

/-- Output `q` of one edge before the gate: the residual feature plus the second affine layer. -/
def edgeLogit (d : Fin 128 → EReal) (e : EReal) (W1 : FVec Ideal ⟨2, ![128, 64]⟩ .f32) (b1 : FVec Ideal ⟨1, ![64]⟩ .f32)
    (W2 : FVec Ideal ⟨2, ![64, 128]⟩ .f32) (b2 : FVec Ideal ⟨1, ![128]⟩ .f32) (q : Fin 128) : EReal :=
  e + ((∑ k : Fin 64, hiddenUnit d W1 b1 k * W2 (ix2 k q)) + b2 (ix1 q))

/-- The logistic gate `1 / (1 + exp (-x))`, with the constant one kept as its float word. -/
def gate (x : EReal) : EReal :=
  Ideal.div (Ideal.ofBits .f32 0x3F800000#32) (Ideal.ofBits .f32 0x3F800000#32 + Ideal.exp (-x))

/-- Output `q` of one edge. -/
def edgeRow (d : Fin 128 → EReal) (e : EReal) (W1 : FVec Ideal ⟨2, ![128, 64]⟩ .f32) (b1 : FVec Ideal ⟨1, ![64]⟩ .f32)
    (W2 : FVec Ideal ⟨2, ![64, 128]⟩ .f32) (b2 : FVec Ideal ⟨1, ![128]⟩ .f32) (q : Fin 128) : EReal :=
  gate (edgeLogit d e W1 b1 W2 b2 q)

/-- The whole result over `n` edges at edge `r`, output `q`: row `r` of the difference array and of the residual array go in. -/
def edgeAt {n : Nat} (D he : FVec Ideal ⟨2, ![n, 128]⟩ .f32) (W1 : FVec Ideal ⟨2, ![128, 64]⟩ .f32)
    (b1 : FVec Ideal ⟨1, ![64]⟩ .f32) (W2 : FVec Ideal ⟨2, ![64, 128]⟩ .f32) (b2 : FVec Ideal ⟨1, ![128]⟩ .f32)
    (r : Fin n) (q : Fin 128) : EReal :=
  edgeRow (fun j => D (ix2 r j)) (he (ix2 r q)) W1 b1 W2 b2 q

/-- The result array over all 640000 edges. -/
def edgeOut (D he : FVec Ideal ⟨2, ![640000, 128]⟩ .f32) (W1 : FVec Ideal ⟨2, ![128, 64]⟩ .f32)
    (b1 : FVec Ideal ⟨1, ![64]⟩ .f32) (W2 : FVec Ideal ⟨2, ![64, 128]⟩ .f32) (b2 : FVec Ideal ⟨1, ![128]⟩ .f32) :
    FVec Ideal ⟨2, ![640000, 128]⟩ .f32 :=
  fun i => edgeAt D he W1 b1 W2 b2 ⟨(i 0).val, (i 0).isLt⟩ ⟨(i 1).val, (i 1).isLt⟩

theorem edgeOut_ix2 (D he : FVec Ideal ⟨2, ![640000, 128]⟩ .f32) (W1 : FVec Ideal ⟨2, ![128, 64]⟩ .f32)
    (b1 : FVec Ideal ⟨1, ![64]⟩ .f32) (W2 : FVec Ideal ⟨2, ![64, 128]⟩ .f32) (b2 : FVec Ideal ⟨1, ![128]⟩ .f32)
    (r : Fin 640000) (q : Fin 128) :
    edgeOut D he W1 b1 W2 b2 (ix2 r q) = edgeAt D he W1 b1 W2 b2 r q := rfl

/-- Subtracting from the float word of zero is negation. -/
theorem zero_word_sub (x : EReal) : Ideal.ofBits .f32 0x00000000#32 - x = -x := by
  rw [show Ideal.ofBits .f32 0x00000000#32 = 0 by simp [Ideal.ofBits, Ideal.ieee], zero_sub]

end Cert.EdgeMlp

end
-- ==== Proof.EdgeKernelBody.lean ====
/-
  The kernel's body, read at one element of its output block.

  One grid point loads a block of 6400 edges (their feature differences and their residual features) and
  the four whole weight arrays, and stores one block of results. Element (p, q) of that block is the
  perceptron of row p of the two loaded blocks: the two matrix products are sums over the contracted
  axis (into a zero accumulator), the roundings to the narrower format are the identity on the extended
  reals, the biases are rows broadcast over the block, and `0 - x` is `-x`.
-/
import proofs.«124192_j7782480740941_1_alg».proof.Proof.Gen.KernelIdeal.Skeleton
import proofs.«124192_j7782480740941_1_alg».proof.Proof.EdgeSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeBody

open Cert.KernelIdeal Cert.KernelIdeal.Gen Idealize.ShloMosaic Idealize.ShloMosaic.ValueIdx Cert.EdgeMlp

/-! ## The first product: [6400, 128] × [128, 64], contracting the 128 features -/

theorem lhsA_0 (i : S6400x64.Idx) (u : dot_S6400x128_S128x64_S6400x64_1_0_0_1_n_n.contr.Idx) :
    (dot_S6400x128_S128x64_S6400x64_1_0_0_1_n_n.lhsIdx i u 0).val = (i 0).val := by
  unfold DotDims.lhsIdx
  rw [dif_neg (show ¬(0 : Fin S6400x128.rank) ∈ dot_S6400x128_S128x64_S6400x64_1_0_0_1_n_n.lhsBatch by decide), dif_pos (show (0 : Fin S6400x128.rank) ∈ dot_S6400x128_S128x64_S6400x64_1_0_0_1_n_n.lhsNonContracting by decide)]
  rfl
theorem lhsA_1 (i : S6400x64.Idx) (u : dot_S6400x128_S128x64_S6400x64_1_0_0_1_n_n.contr.Idx) :
    (dot_S6400x128_S128x64_S6400x64_1_0_0_1_n_n.lhsIdx i u 1).val = (u ⟨0, by decide⟩).val :=
  dot_S6400x128_S128x64_S6400x64_1_0_0_1_n_n.lhsIdx_val_of_single rfl i u
theorem rhsA_0 (i : S6400x64.Idx) (u : dot_S6400x128_S128x64_S6400x64_1_0_0_1_n_n.contr.Idx) :
    (dot_S6400x128_S128x64_S6400x64_1_0_0_1_n_n.rhsIdx i u 0).val = (u ⟨0, by decide⟩).val :=
  dot_S6400x128_S128x64_S6400x64_1_0_0_1_n_n.rhsIdx_val_of_single rfl i u
theorem rhsA_1 (i : S6400x64.Idx) (u : dot_S6400x128_S128x64_S6400x64_1_0_0_1_n_n.contr.Idx) :
    (dot_S6400x128_S128x64_S6400x64_1_0_0_1_n_n.rhsIdx i u 1).val = (i 1).val := by
  unfold DotDims.rhsIdx
  rw [dif_neg (show ¬(1 : Fin S128x64.rank) ∈ dot_S6400x128_S128x64_S6400x64_1_0_0_1_n_n.rhsBatch by decide), dif_pos (show (1 : Fin S128x64.rank) ∈ dot_S6400x128_S128x64_S6400x64_1_0_0_1_n_n.rhsNonContracting by decide)]
  rfl

/-- Element (p, c) of the first product is the sum over the 128 features of row p of the left operand against column c of the right one. -/
theorem firstProduct_apply (l : FVec Ideal S6400x128 .bf16) (r : FVec Ideal S128x64 .bf16) (p : Fin 6400) (c : Fin 64) :
    matmul dot_S6400x128_S128x64_S6400x64_1_0_0_1_n_n none l r (constant (F := Ideal) S6400x64 .f32 0x00000000#32) (ix2 p c)
      = ∑ j : Fin 128, l (ix2 p j) * r (ix2 j c) := by
  simp only [matmul]
  rw [Ideal.matmul_constant_zero_apply, ← Equiv.sum_comp (contrEquiv1 dot_S6400x128_S128x64_S6400x64_1_0_0_1_n_n 128 rfl rfl).symm]
  refine Finset.sum_congr rfl fun j _ => ?_
  have hj := contrEquiv1_symm_val dot_S6400x128_S128x64_S6400x64_1_0_0_1_n_n 128 rfl rfl j
  have el : dot_S6400x128_S128x64_S6400x64_1_0_0_1_n_n.lhsIdx (ix2 p c) ((contrEquiv1 dot_S6400x128_S128x64_S6400x64_1_0_0_1_n_n 128 rfl rfl).symm j) = ix2 p j := funext fun a => Fin.ext (by
    match a with
    | ⟨0, _⟩ => exact lhsA_0 _ _
    | ⟨1, _⟩ => exact (lhsA_1 _ _).trans hj)
  have er : dot_S6400x128_S128x64_S6400x64_1_0_0_1_n_n.rhsIdx (ix2 p c) ((contrEquiv1 dot_S6400x128_S128x64_S6400x64_1_0_0_1_n_n 128 rfl rfl).symm j) = ix2 j c := funext fun a => Fin.ext (by
    match a with
    | ⟨0, _⟩ => exact (rhsA_0 _ _).trans hj
    | ⟨1, _⟩ => exact rhsA_1 _ _)
  rw [el, er]

/-! ## The second product: [6400, 64] × [64, 128], contracting the 64 hidden units -/

theorem lhsB_0 (i : S6400x128.Idx) (u : dot_S6400x64_S64x128_S6400x128_1_0_0_1_n_n.contr.Idx) :
    (dot_S6400x64_S64x128_S6400x128_1_0_0_1_n_n.lhsIdx i u 0).val = (i 0).val := by
  unfold DotDims.lhsIdx
  rw [dif_neg (show ¬(0 : Fin S6400x64.rank) ∈ dot_S6400x64_S64x128_S6400x128_1_0_0_1_n_n.lhsBatch by decide), dif_pos (show (0 : Fin S6400x64.rank) ∈ dot_S6400x64_S64x128_S6400x128_1_0_0_1_n_n.lhsNonContracting by decide)]
  rfl
theorem lhsB_1 (i : S6400x128.Idx) (u : dot_S6400x64_S64x128_S6400x128_1_0_0_1_n_n.contr.Idx) :
    (dot_S6400x64_S64x128_S6400x128_1_0_0_1_n_n.lhsIdx i u 1).val = (u ⟨0, by decide⟩).val :=
  dot_S6400x64_S64x128_S6400x128_1_0_0_1_n_n.lhsIdx_val_of_single rfl i u
theorem rhsB_0 (i : S6400x128.Idx) (u : dot_S6400x64_S64x128_S6400x128_1_0_0_1_n_n.contr.Idx) :
    (dot_S6400x64_S64x128_S6400x128_1_0_0_1_n_n.rhsIdx i u 0).val = (u ⟨0, by decide⟩).val :=
  dot_S6400x64_S64x128_S6400x128_1_0_0_1_n_n.rhsIdx_val_of_single rfl i u
theorem rhsB_1 (i : S6400x128.Idx) (u : dot_S6400x64_S64x128_S6400x128_1_0_0_1_n_n.contr.Idx) :
    (dot_S6400x64_S64x128_S6400x128_1_0_0_1_n_n.rhsIdx i u 1).val = (i 1).val := by
  unfold DotDims.rhsIdx
  rw [dif_neg (show ¬(1 : Fin S64x128.rank) ∈ dot_S6400x64_S64x128_S6400x128_1_0_0_1_n_n.rhsBatch by decide), dif_pos (show (1 : Fin S64x128.rank) ∈ dot_S6400x64_S64x128_S6400x128_1_0_0_1_n_n.rhsNonContracting by decide)]
  rfl

/-- Element (p, c) of the second product is the sum over the 64 hidden units of row p of the left operand against column c of the right one. -/
theorem secondProduct_apply (l : FVec Ideal S6400x64 .bf16) (r : FVec Ideal S64x128 .bf16) (p : Fin 6400) (c : Fin 128) :
    matmul dot_S6400x64_S64x128_S6400x128_1_0_0_1_n_n none l r (constant (F := Ideal) S6400x128 .f32 0x00000000#32) (ix2 p c)
      = ∑ j : Fin 64, l (ix2 p j) * r (ix2 j c) := by
  simp only [matmul]
  rw [Ideal.matmul_constant_zero_apply, ← Equiv.sum_comp (contrEquiv1 dot_S6400x64_S64x128_S6400x128_1_0_0_1_n_n 64 rfl rfl).symm]
  refine Finset.sum_congr rfl fun j _ => ?_
  have hj := contrEquiv1_symm_val dot_S6400x64_S64x128_S6400x128_1_0_0_1_n_n 64 rfl rfl j
  have el : dot_S6400x64_S64x128_S6400x128_1_0_0_1_n_n.lhsIdx (ix2 p c) ((contrEquiv1 dot_S6400x64_S64x128_S6400x128_1_0_0_1_n_n 64 rfl rfl).symm j) = ix2 p j := funext fun a => Fin.ext (by
    match a with
    | ⟨0, _⟩ => exact lhsB_0 _ _
    | ⟨1, _⟩ => exact (lhsB_1 _ _).trans hj)
  have er : dot_S6400x64_S64x128_S6400x128_1_0_0_1_n_n.rhsIdx (ix2 p c) ((contrEquiv1 dot_S6400x64_S64x128_S6400x128_1_0_0_1_n_n 64 rfl rfl).symm j) = ix2 j c := funext fun a => Fin.ext (by
    match a with
    | ⟨0, _⟩ => exact (rhsB_0 _ _).trans hj
    | ⟨1, _⟩ => exact rhsB_1 _ _)
  rw [el, er]

/-! ## The biases: a vector laid out as one row, the row repeated over the block -/

/-- The first bias, broadcast over the 6400 rows, reads at (p, k) the bias of hidden unit k. -/
theorem firstBias_apply (b : FVec Ideal S64 .f32) (p : Fin 6400) (k : Fin 64) :
    broadcastTo S6400x64 (shapeCast S1x64 b shapeCasts_S64_S1x64) broadcasts_S1x64_S6400x64 (ix2 p k) = b (ix1 k) := by
  rw [broadcastTo_1b_ab_apply, shapeCast_a_1a_apply]

/-- The second bias, broadcast over the 6400 rows, reads at (p, q) the bias of output q. -/
theorem secondBias_apply (b : FVec Ideal S128 .f32) (p : Fin 6400) (q : Fin 128) :
    broadcastTo S6400x128 (shapeCast S1x128 b shapeCasts_S128_S1x128) broadcasts_S1x128_S6400x128 (ix2 p q) = b (ix1 q) := by
  rw [broadcastTo_1b_ab_apply, shapeCast_a_1a_apply]

/-- The exponential of a vector at an index is the exponential of the element. -/
theorem exp_apply {s : Shape} (a : FVec Ideal s .f32) (i : s.Idx) : exp a i = Ideal.exp (a i) := rfl

/-! ## The stored value at an element -/

/-- Element (p, q) of what a grid point stores is the perceptron of row p of its two edge blocks. -/
theorem stored_apply (x0 : FVec Ideal S6400x128 .f32) (w1 : FVec Ideal S128x64 .f32) (b1 : FVec Ideal S64 .f32)
    (w2 : FVec Ideal S64x128 .f32) (b2 : FVec Ideal S128 .f32) (x1 : FVec Ideal S6400x128 .f32) (p : Fin 6400) (q : Fin 128) :
    k0_pay1 (F := Ideal) x0 w1 b1 w2 b2 x1 (ix2 p q) = edgeAt (n := 6400) x0 x1 w1 b1 w2 b2 p q := by
  unfold k0_pay1 edgeAt edgeRow gate edgeLogit hiddenUnit
  simp only [divf_apply, addf_apply, subf_apply, exp_apply, broadcast_apply, secondProduct_apply, secondBias_apply,
    truncf_apply, maximumf_apply, firstProduct_apply, firstBias_apply, shapeCast_self, Ideal.ofBits_def, zero_word_sub]

end Cert.KernelIdeal.EdgeBody

end
-- ==== Proof.EdgeKernelValue.lean ====
/-
  From the blocks the grid points store to the whole result array.

  Grid point t (of 100) is given rows 6400·t … 6400·t + 6399 of the two edge arrays and the four weight
  arrays whole, and writes back rows 6400·t … 6400·t + 6399 of the result. A row of the perceptron depends
  on that row of the edge arrays only, so what point t writes back is exactly those rows of the one
  whole-array function; the 100 row blocks cover every row, so after the run the result array is that
  function of the arrays the region found: the weight and residual arrays as launched, and the feature
  differences the program computed before the region.
-/
import proofs.«124192_j7782480740941_1_alg».proof.Proof.Gen.KernelIdeal.Value
import proofs.«124192_j7782480740941_1_alg».proof.Proof.EdgeKernelBody
import Idealize.ShloMosaic.Lib.Pipeline.Value
import Idealize.ShloMosaic.Lib.StableHlo.Run
import Idealize.ShloMosaic.Lib.Tactic

noncomputable section

namespace Cert.KernelIdeal.EdgeValue

open Cert.KernelIdeal Cert.KernelIdeal.Gen Idealize.ShloMosaic Idealize.ShloMosaic.TcCoe Idealize.SL.Sem
open Idealize.ShloMosaic.ValueIdx Cert.EdgeMlp
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two edge windows and the result window are at row block t, the four weight
    windows at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-! ## The input blocks at a point -/

/-- The first weight array's one block is the whole array. -/
theorem wblk2 (c : Dev nD) (t : Fin cfg0.N) : (iblk m c 2 t : FVec Ideal S128x64 .f32) = V m c main_arg4 := by
  obtain ⟨e00, e01, e10, e11, e20, e21, e30, e40, e41, e50, e60, e61⟩ := idx_facts t
  funext j
  unfold iblk
  rw [View.read_apply]
  show V m c main_arg4 _ = V m c main_arg4 j
  congr 1
  funext a
  apply Fin.ext
  match a with
  | ⟨0, _⟩ => show win0_2.index t (0 : Fin 2) * 128 + 1 * (j 0).val = (j 0).val; rw [e20]; omega
  | ⟨1, _⟩ => show win0_2.index t (1 : Fin 2) * 64 + 1 * (j 1).val = (j 1).val; rw [e21]; omega

/-- The first bias's one block is the whole vector. -/
theorem wblk3 (c : Dev nD) (t : Fin cfg0.N) : (iblk m c 3 t : FVec Ideal S64 .f32) = V m c main_arg5 := by
  obtain ⟨e00, e01, e10, e11, e20, e21, e30, e40, e41, e50, e60, e61⟩ := idx_facts t
  funext j
  unfold iblk
  rw [View.read_apply]
  show V m c main_arg5 _ = V m c main_arg5 j
  congr 1
  funext a
  apply Fin.ext
  match a with
  | ⟨0, _⟩ => show win0_3.index t (0 : Fin 1) * 64 + 1 * (j 0).val = (j 0).val; rw [e30]; omega

/-- The second weight array's one block is the whole array. -/
theorem wblk4 (c : Dev nD) (t : Fin cfg0.N) : (iblk m c 4 t : FVec Ideal S64x128 .f32) = V m c main_arg6 := by
  obtain ⟨e00, e01, e10, e11, e20, e21, e30, e40, e41, e50, e60, e61⟩ := idx_facts t
  funext j
  unfold iblk
  rw [View.read_apply]
  show V m c main_arg6 _ = V m c main_arg6 j
  congr 1
  funext a
  apply Fin.ext
  match a with
  | ⟨0, _⟩ => show win0_4.index t (0 : Fin 2) * 64 + 1 * (j 0).val = (j 0).val; rw [e40]; omega
  | ⟨1, _⟩ => show win0_4.index t (1 : Fin 2) * 128 + 1 * (j 1).val = (j 1).val; rw [e41]; omega

/-- The second bias's one block is the whole vector. -/
theorem wblk5 (c : Dev nD) (t : Fin cfg0.N) : (iblk m c 5 t : FVec Ideal S128 .f32) = V m c main_arg7 := by
  obtain ⟨e00, e01, e10, e11, e20, e21, e30, e40, e41, e50, e60, e61⟩ := idx_facts t
  funext j
  unfold iblk
  rw [View.read_apply]
  show V m c main_arg7 _ = V m c main_arg7 j
  congr 1
  funext a
  apply Fin.ext
  match a with
  | ⟨0, _⟩ => show win0_5.index t (0 : Fin 1) * 128 + 1 * (j 0).val = (j 0).val; rw [e50]; omega

/-- Row p of the feature-difference block at point t is row 6400·t + p of the difference array. -/
theorem eblk0 (c : Dev nD) (t : Fin cfg0.N) (y : S6400x128.Idx) (i : S640000x128.Idx)
    (h0 : (i 0).val = 6400 * t.val + (y 0).val) (h1 : (i 1).val = (y 1).val) :
    (iblk m c 0 t : FVec Ideal S6400x128 .f32) y = V m c main_v15 i := by
  obtain ⟨e00, e01, e10, e11, e20, e21, e30, e40, e41, e50, e60, e61⟩ := idx_facts t
  unfold iblk
  rw [View.read_apply]
  show V m c main_v15 _ = V m c main_v15 i
  congr 1
  funext a
  apply Fin.ext
  match a with
  | ⟨0, _⟩ => show win0_0.index t (0 : Fin 2) * 6400 + 1 * (y 0).val = (i 0).val; rw [e00, h0]; omega
  | ⟨1, _⟩ => show win0_0.index t (1 : Fin 2) * 128 + 1 * (y 1).val = (i 1).val; rw [e01, h1]; omega

/-- Row p of the residual-feature block at point t is row 6400·t + p of the residual array. -/
theorem eblk1 (c : Dev nD) (t : Fin cfg0.N) (y : S6400x128.Idx) (i : S640000x128.Idx)
    (h0 : (i 0).val = 6400 * t.val + (y 0).val) (h1 : (i 1).val = (y 1).val) :
    (iblk m c 1 t : FVec Ideal S6400x128 .f32) y = V m c main_arg1 i := by
  obtain ⟨e00, e01, e10, e11, e20, e21, e30, e40, e41, e50, e60, e61⟩ := idx_facts t
  unfold iblk
  rw [View.read_apply]
  show V m c main_arg1 _ = V m c main_arg1 i
  congr 1
  funext a
  apply Fin.ext
  match a with
  | ⟨0, _⟩ => show win0_1.index t (0 : Fin 2) * 6400 + 1 * (y 0).val = (i 0).val; rw [e10, h0]; omega
  | ⟨1, _⟩ => show win0_1.index t (1 : Fin 2) * 128 + 1 * (y 1).val = (i 1).val; rw [e11, h1]; omega

/-! ## One stored block is a row block of the whole-array function -/

/-- If the two edge blocks are rows o … o + 6399 of two arrays, the stored block is those rows of the perceptron of the arrays. -/
theorem stored_rows (D he : FVec Ideal S640000x128 .f32) (w1 : FVec Ideal S128x64 .f32) (b1 : FVec Ideal S64 .f32)
    (w2 : FVec Ideal S64x128 .f32) (b2 : FVec Ideal S128 .f32) (x0 x1 : FVec Ideal S6400x128 .f32) (o : Nat)
    (hx0 : ∀ (y : S6400x128.Idx) (i : S640000x128.Idx), (i 0).val = o + (y 0).val → (i 1).val = (y 1).val → x0 y = D i)
    (hx1 : ∀ (y : S6400x128.Idx) (i : S640000x128.Idx), (i 0).val = o + (y 0).val → (i 1).val = (y 1).val → x1 y = he i)
    (y : S6400x128.Idx) (i : S640000x128.Idx) (h0 : (i 0).val = o + (y 0).val) (h1 : (i 1).val = (y 1).val) :
    k0_pay1 (F := Ideal) x0 w1 b1 w2 b2 x1 y = edgeOut D he w1 b1 w2 b2 i := by
  obtain ⟨p, q, rfl⟩ : ∃ (p : Fin 6400) (q : Fin 128), y = ix2 p q := ⟨y 0, y 1, eq_ix2 y⟩
  obtain ⟨r, q', rfl⟩ : ∃ (r : Fin 640000) (q' : Fin 128), i = ix2 r q' := ⟨i 0, i 1, eq_ix2 i⟩
  have hr : r.val = o + p.val := h0
  have hq : q' = q := Fin.ext h1
  subst hq
  rw [EdgeBody.stored_apply, edgeOut_ix2]
  unfold edgeAt
  have e0 : (fun j => x0 (ix2 p j)) = fun j => D (ix2 r j) := funext fun j => hx0 (ix2 p j) (ix2 r j) hr rfl
  rw [e0, hx1 (ix2 p q') (ix2 r q') hr rfl]

/-! ## What a point writes back, the cover, the final array -/

/-- The result array as one function of the arrays the region finds. -/
abbrev resultOfEntry (c : Dev nD) : FVec Ideal S640000x128 .f32 :=
  edgeOut (V m c main_v15) (V m c main_arg1) (V m c main_arg4) (V m c main_arg5) (V m c main_arg6) (V m c main_arg7)

/-- What point t writes back is row block t of that function. -/
theorem flushed_eq (c : Dev nD) (t : Fin cfg0.N) :
    (dats m 0 c).flushed 6 t = ((cfg0.win 6).blk t).view.read (Elt Ideal) (resultOfEntry m c) := by
  obtain ⟨e00, e01, e10, e11, e20, e21, e30, e40, e41, e50, e60, e61⟩ := idx_facts t
  rw [Value.flushed6]
  unfold out0_6
  rw [View.canon_unit_zero hz2]
  simp only [View.ld_unit_zero (S := S6400x128) hz2, View.ld_unit_zero (S := S128x64) hz2, View.ld_unit_zero (S := S64) hz1,
    View.ld_unit_zero (S := S64x128) hz2, View.ld_unit_zero (S := S128) hz1]
  rw [wblk2, wblk3, wblk4, wblk5]
  funext y
  show k0_pay1 (F := Ideal) (iblk m c 0 t) (V m c main_arg4) (V m c main_arg5) (V m c main_arg6) (V m c main_arg7) (iblk m c 1 t) y
    = resultOfEntry m c (((cfg0.win 6).blk t).view.emb y)
  refine stored_rows (V m c main_v15) (V m c main_arg1) _ _ _ _ _ _ (6400 * t.val)
    (fun y i h0 h1 => eblk0 m c t y i h0 h1) (fun y i h0 h1 => eblk1 m c t y i h0 h1) y _ ?_ ?_
  · show win0_6.index t (0 : Fin 2) * 6400 + 1 * (y 0).val = 6400 * t.val + (y 0).val; rw [e60]; omega
  · show win0_6.index t (1 : Fin 2) * 128 + 1 * (y 1).val = (y 1).val; rw [e61]; omega

/-- An index is in point t's block iff each coordinate is in the block's range. -/
theorem mem_blk (t : Fin cfg0.N) (i : S640000x128.Idx) :
    i ∈ ((cfg0.win 6).blk t).view.set ↔ ∀ a : Fin 2, win0_6.index t a * S6400x128.size a ≤ (i a).val ∧ (i a).val < win0_6.index t a * S6400x128.size a + S6400x128.size a := by
  show i ∈ ((View.whole main_v16).slice (win0_6.rect t)).set ↔ _
  rw [View.set_slice_whole, Rect.mem_set_unit]
  exact Iff.rfl

/-- Every row is in the block of the point its number divided by 6400 names. -/
theorem cover (i : S640000x128.Idx) : ∃ t : Fin cfg0.N, (cfg0.win 6).flush t = true ∧ i ∈ ((cfg0.win 6).blk t).view.set := by
  have hi0 : (i 0).val < 640000 := (i 0).isLt
  have hi1 : (i 1).val < 128 := (i 1).isLt
  have hN : cfg0.N = 100 := N_0
  have ht : (i 0).val / 6400 < cfg0.N := by rw [hN]; omega
  obtain ⟨e00, e01, e10, e11, e20, e21, e30, e40, e41, e50, e60, e61⟩ := idx_facts ⟨(i 0).val / 6400, ht⟩
  refine ⟨⟨(i 0).val / 6400, ht⟩, flush0_6 _, ?_⟩
  rw [mem_blk]
  intro a
  match a with
  | ⟨0, _⟩ =>
    show win0_6.index ⟨(i 0).val / 6400, ht⟩ (0 : Fin 2) * 6400 ≤ (i 0).val ∧ (i 0).val < win0_6.index ⟨(i 0).val / 6400, ht⟩ (0 : Fin 2) * 6400 + 6400
    rw [e60]; show (i 0).val / 6400 * 6400 ≤ (i 0).val ∧ (i 0).val < (i 0).val / 6400 * 6400 + 6400; omega
  | ⟨1, _⟩ =>
    show win0_6.index ⟨(i 0).val / 6400, ht⟩ (1 : Fin 2) * 128 ≤ (i 1).val ∧ (i 1).val < win0_6.index ⟨(i 0).val / 6400, ht⟩ (1 : Fin 2) * 128 + 128
    rw [e61]; omega

/-- After the run the result array is the whole-array function of the arrays the region found. -/
theorem final (c : Dev nD) : (dats m 0 c).arrAt 6 cfg0.N = resultOfEntry m c :=
  (dats m 0 c).arrAt_eq_of_cover 6 (resultOfEntry m c) (fun t _ => flushed_eq m c t) cover

/-! ## The feature differences the region finds -/

/-- The feature differences as a function of the node features and the two index arrays: both gathers (an index
    below zero counted from the end), their difference, its absolute value. -/
def diffOf (h : FVec Ideal S10000x128 .f32) (src dst : IVec S640000 32) : FVec Ideal S640000x128 .f32 :=
  Host.absf (subf (Host.gather gather_S10000x128_S640000x1_S640000x128_1_0_n_n_0_1_1128 h (broadcastInDim S640000x1 ![0] bcast_S640000_S640000x1_0 (select (cmpi .slt dst (broadcastInDim S640000 ![] bcast_S_S640000 (constantI S_ 32 0#32))) (addi dst (broadcastInDim S640000 ![] bcast_S_S640000 (constantI S_ 32 10000#32))) dst))) (Host.gather gather_S10000x128_S640000x1_S640000x128_1_0_n_n_0_1_1128 h (broadcastInDim S640000x1 ![0] bcast_S640000_S640000x1_0 (select (cmpi .slt src (broadcastInDim S640000 ![] bcast_S_S640000 (constantI S_ 32 0#32))) (addi src (broadcastInDim S640000 ![] bcast_S_S640000 (constantI S_ 32 10000#32))) src))))

set_option maxRecDepth 8192 in
set_option maxHeartbeats 2000000 in
/-- The array the first window stages is that function of the launch arrays. -/
theorem diff_eq (c : Dev nD) :
    (V m c main_v15 : FVec Ideal S640000x128 .f32) = diffOf (m ((c : Thread nD τ).loc main_arg0)) (m ((c : Thread nD τ).loc main_arg2)) (m ((c : Thread nD τ).loc main_arg3)) := by
  unfold diffOf
  dsimp only [Gen.V, Gen.hostOps0]
  after_results_simp <;> rfl

/-- The result array as a function of the launch arrays. -/
abbrev result (c : Dev nD) : FVec Ideal S640000x128 .f32 :=
  edgeOut (diffOf (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7))

theorem resultOfEntry_eq (c : Dev nD) : resultOfEntry m c = result m c := by
  unfold resultOfEntry result
  rw [diff_eq, V_main_arg1, V_main_arg4, V_main_arg5, V_main_arg6, V_main_arg7]

/-! ## The run -/

/-- Every run of the kernel's program ends with the result array at the whole-array function of the launch arrays,
    the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (resultOfEntry_eq m c)), (h c).2⟩)
    (Value.run_blocks m ρ)

end Cert.KernelIdeal.EdgeValue

end
-- ==== Proof.EdgeReference.lean ====
/-
  The reference program's result, read at one element.

  The reference computes the feature differences `|h[dst] - h[src]|` with the same gathers as the kernel's
  program and then, over all 640000 edges at once, the same perceptron: a product with W1, the bias b1, a
  maximum with zero, a product with W2, the bias b2, the residual add and `1 / (1 + exp (-x))`. Read at
  element (r, q) each product is a sum over its contracted axis and each bias a row repeated over the
  edges, so the element is the perceptron of row r of the difference array and of the residual array.
-/
import proofs.«124192_j7782480740941_1_alg».proof.Proof.Gen.ReferenceIdeal.Read
import proofs.«124192_j7782480740941_1_alg».proof.Proof.EdgeSpec

noncomputable section

namespace Cert.ReferenceIdeal.EdgeRef

open Cert.ReferenceIdeal Cert.ReferenceIdeal.Gen Cert.ReferenceIdeal.Read Idealize.ShloMosaic Idealize.ShloMosaic.ValueIdx Cert.EdgeMlp

/-! ## Where each operand is read -/

/-- The first product at (r, k) reads row r of the differences along j … -/
theorem lhsFirst (r : Fin 640000) (k : Fin 64) (j : Fin 128) : lidx_main_v16 (ix2 r k) j = ix2 r j :=
  funext fun a => Fin.ext (by match a with | ⟨0, _⟩ => rfl | ⟨1, _⟩ => rfl)
/-- … and column k of W1. -/
theorem rhsFirst (r : Fin 640000) (k : Fin 64) (j : Fin 128) : ridx_main_v16 (ix2 r k) j = ix2 j k :=
  funext fun a => Fin.ext (by match a with | ⟨0, _⟩ => rfl | ⟨1, _⟩ => rfl)
/-- The second product at (r, q) reads row r of the hidden layer along k … -/
theorem lhsSecond (r : Fin 640000) (q : Fin 128) (k : Fin 64) : lidx_main_v21 (ix2 r q) k = ix2 r k :=
  funext fun a => Fin.ext (by match a with | ⟨0, _⟩ => rfl | ⟨1, _⟩ => rfl)
/-- … and column q of W2. -/
theorem rhsSecond (r : Fin 640000) (q : Fin 128) (k : Fin 64) : ridx_main_v21 (ix2 r q) k = ix2 k q :=
  funext fun a => Fin.ext (by match a with | ⟨0, _⟩ => rfl | ⟨1, _⟩ => rfl)
/-- The first bias, repeated over the edges, reads at (r, k) entry k. -/
theorem firstBiasIdx (r : Fin 640000) (k : Fin 64) : idx_main_v17 (idx_main_v18 (ix2 r k)) = ix1 k :=
  funext fun a => Fin.ext (by match a with | ⟨0, _⟩ => rfl)
/-- The second bias, repeated over the edges, reads at (r, q) entry q. -/
theorem secondBiasIdx (r : Fin 640000) (q : Fin 128) : idx_main_v22 (idx_main_v23 (ix2 r q)) = ix1 q :=
  funext fun a => Fin.ext (by match a with | ⟨0, _⟩ => rfl)

/-! ## The result -/

/-- The reference's result array is the perceptron of the rows of its own difference array and of the residual array. -/
theorem result_eq (x0 : FVec Ideal S10000x128 .f32) (x1 : FVec Ideal S640000x128 .f32) (x2 x3 : IVec S640000 32)
    (x4 : FVec Ideal S128x64 .f32) (x5 : FVec Ideal S64 .f32) (x6 : FVec Ideal S64x128 .f32) (x7 : FVec Ideal S128 .f32) :
    val_main_v31 (F := Ideal) x0 x1 x2 x3 x4 x5 x6 x7
      = edgeOut (val_main_v15 (F := Ideal) x0 x2 x3) x1 x4 x5 x6 x7 := by
  funext i
  obtain ⟨r, q, rfl⟩ : ∃ (r : Fin 640000) (q : Fin 128), i = ix2 r q := ⟨i 0, i 1, eq_ix2 i⟩
  rw [edgeOut_ix2]
  unfold edgeAt edgeRow gate edgeLogit hiddenUnit
  simp only [val_main_v31_apply, val_main_v30_apply, val_main_cst_3_apply, val_main_v29_apply, val_main_v28_apply, val_main_cst_apply,
    val_main_v27_apply, val_main_v26_apply, val_main_v25_apply, val_main_v24_apply, val_main_v21_apply, val_main_v23_apply,
    val_main_v22_apply, val_main_v20_apply, val_main_v19_apply, val_main_v16_apply, val_main_v18_apply, val_main_v17_apply,
    val_main_call0_v0_apply, val_main_call0_cst_apply, lhsFirst, rhsFirst, lhsSecond, rhsSecond, firstBiasIdx, secondBiasIdx,
    Ideal.hostDivf_def, Ideal.addf_def, Ideal.hostUnary_exp_def, Ideal.hostNegf_def, Ideal.negf_def, Ideal.maximumf_def,
    Ideal.ofBits_def]

end Cert.ReferenceIdeal.EdgeRef

end
-- ==== Proof.lean ====
/-
  The certificate of the edge layer of a graph network: for each of 640000 edges, the absolute difference of
  the two end nodes' features goes through a two-layer perceptron (128 → 64, rectified, → 128), is added to the
  edge's own features, and passes a logistic gate `1 / (1 + exp (-x))`.

  The kernel's program computes the feature differences with two gathers on the host, exactly as the reference
  does, and then tiles the edges into 100 row blocks of 6400; the reference applies the perceptron to all
  edges at once. On the extended reals the two agree: a row of the result depends on that row of the edge
  arrays only, a matrix product into a zero accumulator is the plain sum over the contracted axis on both
  sides, the roundings to the narrower float format are the identity, `0 - x` is `-x`, and both sides divide one
  by `1 + exp (-x)`. No law used needs the inputs finite, so the precondition is never opened.

  The three frames are the generated ones (the reference's is its generated run with the result dropped); the
  idealization rewrote nothing, so `preserves` is trivial.
-/
import proofs.«124192_j7782480740941_1_alg».proof.Defs
import proofs.«124192_j7782480740941_1_alg».proof.Proof.Gen.Kernel
import proofs.«124192_j7782480740941_1_alg».proof.Proof.Gen.Kernel.Skeleton
import proofs.«124192_j7782480740941_1_alg».proof.Proof.Gen.Kernel.Launch
import proofs.«124192_j7782480740941_1_alg».proof.Proof.Gen.Kernel.Points
import proofs.«124192_j7782480740941_1_alg».proof.Proof.Gen.Kernel.Frame
import proofs.«124192_j7782480740941_1_alg».proof.Proof.Gen.KernelIdeal
import proofs.«124192_j7782480740941_1_alg».proof.Proof.Gen.KernelIdeal.Skeleton
import proofs.«124192_j7782480740941_1_alg».proof.Proof.Gen.KernelIdeal.Launch
import proofs.«124192_j7782480740941_1_alg».proof.Proof.Gen.KernelIdeal.Points
import proofs.«124192_j7782480740941_1_alg».proof.Proof.Gen.KernelIdeal.Frame
import proofs.«124192_j7782480740941_1_alg».proof.Proof.Gen.ReferenceIdeal
import proofs.«124192_j7782480740941_1_alg».proof.Proof.Gen.Pre_finite_inputs
import proofs.«124192_j7782480740941_1_alg».proof.Proof.Gen.KernelIdeal.Value
import proofs.«124192_j7782480740941_1_alg».proof.Proof.Gen.ReferenceIdeal.Run
import proofs.«124192_j7782480740941_1_alg».proof.Proof.Gen.ReferenceIdeal.Read
import proofs.«124192_j7782480740941_1_alg».proof.Proof.EdgeSpec
import proofs.«124192_j7782480740941_1_alg».proof.Proof.EdgeKernelBody
import proofs.«124192_j7782480740941_1_alg».proof.Proof.EdgeKernelValue
import proofs.«124192_j7782480740941_1_alg».proof.Proof.EdgeReference
import Idealize.ShloMosaic.Adequacy
import Idealize.ShloMosaic.Init

noncomputable section

namespace Cert.Proof

open Idealize.ShloMosaic Idealize.SL.Sem

/-- The reference's feature differences are the kernel program's: the same two gathers, difference and absolute value. -/
theorem diff_same (x0 : FVec Ideal Cert.ReferenceIdeal.S10000x128 .f32) (x2 x3 : IVec Cert.ReferenceIdeal.S640000 32) :
    Cert.ReferenceIdeal.Read.val_main_v15 (F := Ideal) x0 x2 x3 = Cert.KernelIdeal.EdgeValue.diffOf x0 x2 x3 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the perceptron of the rows of the feature differences and of the residual features,
    from launch arrays that agree. -/
theorem algebraic : Cert.algebraic_KernelIdeal_ReferenceIdeal := by
  intro m ρ m' ρ' _ hagree
  refine ⟨fun c => Cert.KernelIdeal.EdgeValue.result m c, Cert.KernelIdeal.EdgeValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact (Cert.ReferenceIdeal.Read.val_main_v31_eq _ _ _ _ _ _ _ _).trans
    ((Cert.ReferenceIdeal.EdgeRef.result_eq _ _ _ _ _ _ _ _).trans (by rw [diff_same]))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
